-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S50000x256 .f32) (main_arg1 : FVec F S256x128 .f32) (main_arg2 : IVec S800000 32) (main_arg3 : IVec S800000 32) (main_arg4 : FVec F S800000 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S800000 .f32 := Host.absf main_arg4
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  main_v13
-- ==== Kernel.lean ====
abbrev S50000x256 : Shape := ⟨2, ![50000, 256]⟩
abbrev S256x128 : Shape := ⟨2, ![256, 128]⟩
abbrev S800000 : Shape := ⟨1, ![800000]⟩
abbrev S50000x128 : Shape := ⟨2, ![50000, 128]⟩
abbrev S5000x256 : Shape := ⟨2, ![5000, 256]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩

abbrev nBuf : Space → Nat
  | .hbm => 25
  | .vmem => 5
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S50000x128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S800000x1, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S800000 : Shape := ⟨1, ![800000]⟩
abbrev S50000x128 : Shape := ⟨2, ![50000, 128]⟩
abbrev S800000x1 : Shape := ⟨2, ![800000, 1]⟩
abbrev S_ : Shape := ⟨0, ![]⟩
abbrev S800000x128 : Shape := ⟨2, ![800000, 128]⟩

abbrev nBuf : Space → Nat
  | .hbm => 25
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S50000x128, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.BlockProduct.lean ====
/-
  What the kernel's body computes on one block.

  At a grid point the body loads a block of 5000 rows of the features and the whole weight matrix, narrows
  both to bf16 (on the extended reals a change of float format is the identity), multiplies them on the
  matrix unit into an accumulator of zeros, and stores the result. Read at row p and column q of the block,
  the stored value is therefore the sum over the 256 features k of the block's entry (p, k) times the
  weights' entry (k, q): zero plus that sum, and zero is the neutral element.
-/
import proofs.«427942_j66752381714534_3_alg».proof.Proof.Gen.KernelIdeal.Skeleton
import Idealize.ShloMosaic.Lib.ValueIdx
import Idealize.ShloMosaic.PureOps.Ideal.Laws

noncomputable section

namespace Cert.GraphConv.Kernel

open Cert.KernelIdeal Cert.KernelIdeal.Gen
open Idealize.ShloMosaic Idealize.ShloMosaic.TcCoe Idealize.ShloMosaic.ValueIdx
open scoped BigOperators

/-! ## Which entries of the operands one product entry reads

The matrix unit's dimension record contracts the block's second axis against the weights' first; its other
two axes are the result's row and column. -/

theorem left_row (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem left_feature (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem right_feature (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem right_column (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-! ## The stored value at an entry -/

/-- The body's stored value at row `p`, column `q` of the block: the sum over the features of the block's
    entry (p, k) times the weights' entry (k, q). -/
theorem payload_apply (xb : Vec Ideal S5000x256 .f32) (wt : Vec Ideal S256x128 .f32) (p : Fin 5000) (q : Fin 128) :
    k0_pay1 (F := Ideal) xb wt (ix2 p q) = ∑ k : Fin 256, xb (ix2 p k) * wt (ix2 k q) := by
  unfold k0_pay1
  refine (Ideal.matmul_constant_zero_apply (φ₁ := .bf16) (φ₂ := .bf16) dot_S5000x256_S256x128_S5000x128_1_0_0_1_n_n none xb wt (ix2 p q)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact left_row _ _
    | ⟨1, _⟩ => exact (left_feature _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (right_feature _ _).trans hk
    | ⟨1, _⟩ => exact right_column _ _)
  rw [el, er]

end Cert.GraphConv.Kernel

end
-- ==== Proof.FeatureProduct.lean ====
/-
  The dense half of a graph-convolution layer: the node-feature matrix times the weight matrix.

  Entry (i, j) of the product is the sum, over the 256 input features k, of x[i, k] * w[k, j], taken on the
  extended reals: a plain finite sum, with no rounding and no order of summation left in it. Both programs
  compute exactly this array before their common sparse aggregation (gather the rows named by the edge
  sources, scale each by its edge weight, add into the rows named by the edge targets, clamp below at zero),
  so it is the one place where they have to be compared.
-/
import Idealize.ShloMosaic.PureOps.Ideal
import Idealize.ShloMosaic.Lib.ValueIdx

noncomputable section

namespace Cert.GraphConv

open Idealize.ShloMosaic Idealize.ShloMosaic.ValueIdx
open scoped BigOperators

/-- The product of a 50000 x 256 matrix of node features with a 256 x 128 matrix of weights, entry by entry:
    row i of the features against column j of the weights. -/
def featureProduct (x : FVec Ideal (⟨2, ![50000, 256]⟩ : Shape) .f32) (w : FVec Ideal (⟨2, ![256, 128]⟩ : Shape) .f32) :
    FVec Ideal (⟨2, ![50000, 128]⟩ : Shape) .f32 :=
  fun i => ∑ k : Fin 256, x (ix2 (i 0) k) * w (ix2 k (i 1))

/-- The product at a row and a column given separately. -/
theorem featureProduct_apply (x : FVec Ideal (⟨2, ![50000, 256]⟩ : Shape) .f32) (w : FVec Ideal (⟨2, ![256, 128]⟩ : Shape) .f32)
    (r : Fin 50000) (j : Fin 128) :
    featureProduct x w (ix2 r j) = ∑ k : Fin 256, x (ix2 r k) * w (ix2 k j) := rfl

end Cert.GraphConv

end
-- ==== Proof.RegionArray.lean ====
/-
  The array the kernel's region leaves: the feature product.

  The region runs the body at ten grid points. Point t reads rows 5000 t .. 5000 t + 4999 of the features and
  the whole weight matrix, and writes its result back over the same rows of the output array, all 128 columns.
  So what point t writes back is exactly the rows 5000 t .. 5000 t + 4999 of the feature product: entry (p, q)
  of the block is the sum over the features k of x[5000 t + p, k] * w[k, q]. Row r of the output lies in the
  block of point r / 5000, so the ten blocks cover the array, and the array ends holding the feature product
  of the two argument arrays.
-/
import proofs.«427942_j66752381714534_3_alg».proof.Proof.Gen.KernelIdeal.Frame
import proofs.«427942_j66752381714534_3_alg».proof.Proof.BlockProduct
import proofs.«427942_j66752381714534_3_alg».proof.Proof.FeatureProduct
import Idealize.ShloMosaic.Lib.Pipeline.Value

set_option maxRecDepth 16384

noncomputable section

namespace Cert.GraphConv.Kernel

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ)

/-- The features as the region finds them, at their literal shape. -/
abbrev features (c : Dev nD) : FVec Ideal S50000x256 .f32 := V m c main_arg0
/-- The weights as the region finds them, at their literal shape. -/
abbrev weights (c : Dev nD) : FVec Ideal S256x128 .f32 := V m c main_arg1
/-- The block of 5000 feature rows that grid point `t` loads. -/
abbrev featureBlock (c : Dev nD) (t : Fin cfg0.N) : Vec Ideal S5000x256 .f32 := iblk m c 0 t
/-- The weights as grid point `t` loads them: the whole matrix. -/
abbrev weightBlock (c : Dev nD) (t : Fin cfg0.N) : Vec Ideal S256x128 .f32 := iblk m c 1 t

/-- Every load and the store of the body start at the origin of their buffers. -/
theorem origin_eq : (![0, 0] : Fin 2 → Nat) = fun _ => 0 := funext fun a => by fin_cases a <;> rfl

/-- Where each window's block sits at grid point `t`: the features' and the output's blocks are row block `t`,
    the weights' block is the whole matrix, and no window moves along its second axis. -/
theorem blockIndex_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Each of the ten row blocks of the output is some grid point's. -/
theorem blockIndex_onto : ∀ b : Fin 10, ∃ t : Fin cfg0.N, win0_2.index t = ![b.val, 0] :=
  (by decide +kernel : ∀ b : Fin 10, ∃ t : Fin grid0.N, win0_2.index t = ![b.val, 0])

/-- What grid point `t` writes back is block `t` of the feature product of the two argument arrays. -/
theorem writtenBack_eq (c : Dev nD) (t : Fin cfg0.N) :
    (dats m 0 c).flushed 2 t
      = ((cfg0.win 2).blk t).view.read (Elt Ideal) (Cert.GraphConv.featureProduct (V m c main_arg0) (V m c main_arg1)) := by
  show (cfg0.win 2).cut (grid0.coords t) ((dats m 0 c).after 2 t) = _
  rw [after0_2]
  unfold out0_2
  rw [View.canon_unit_zero origin_eq]
  simp only [View.ld_unit_zero (S := S5000x256) origin_eq, View.ld_unit_zero (S := S256x128) origin_eq]
  obtain ⟨e0, e1, e2, e3, e4⟩ := blockIndex_facts t
  funext j
  obtain ⟨p, q, rfl⟩ : ∃ (p : Fin 5000) (q : Fin 128), j = ix2 p q := ⟨j 0, j 1, eq_ix2 j⟩
  refine (payload_apply (featureBlock m c t) (weightBlock m c t) p q).trans ?_
  show _ = ∑ k : Fin 256, features m c (ix2 ((((cfg0.win 2).blk t).view.emb (ix2 p q)) 0) k)
      * weights m c (ix2 k ((((cfg0.win 2).blk t).view.emb (ix2 p q)) 1))
  refine Finset.sum_congr rfl fun k _ => ?_
  have hx : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have hw : ((cfg0.win 1).blk t).view.emb (ix2 k q) = ix2 k ((((cfg0.win 2).blk t).view.emb (ix2 p q)) 1) := by
    funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  show features m c (((cfg0.win 0).blk t).view.emb (ix2 p k)) * weights m c (((cfg0.win 1).blk t).view.emb (ix2 k q)) = _
  rw [hx, hw]
  rfl

/-- An entry of the output array lies in point `t`'s block iff, on each axis, its coordinate lies in the block's range. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every entry of the output array is written back by some point: row `r` by the point of row block `r / 5000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := blockIndex_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region is the feature product of the features and the weights as launched. -/
theorem regionArray_eq (c : Dev nD) :
    (dats m 0 c).arrAt 2 cfg0.N
      = Cert.GraphConv.featureProduct (m ((c : Thread nD τ).loc main_arg0)) (m ((c : Thread nD τ).loc main_arg1)) :=
  (dats m 0 c).arrAt_eq_of_cover 2 (Cert.GraphConv.featureProduct (V m c main_arg0) (V m c main_arg1))
    (fun t _ => writtenBack_eq m c t) covered

end Cert.GraphConv.Kernel

end
-- ==== Proof.KernelResult.lean ====
/-
  The kernel's result as one function of its five arguments.

  After the region the program aggregates over the graph's edges. For edge e with target row[e], source
  col[e] and weight vals[e]: a negative source index is wrapped by adding the number of nodes; row col[e] of
  the product array is gathered and scaled by vals[e]; the scaled rows are added into an array of zeros at
  their target rows; and every entry is finally clamped below at zero. All of that is ONE function,
  `aggregate`, of the product array and the three edge arrays. The region leaves the feature product of the
  features and the weights in the product array, and the lines after it read the edge arrays as launched, so
  the program's result is `aggregate` of the feature product and the edge arrays.
-/
import proofs.«427942_j66752381714534_3_alg».proof.Proof.Gen.KernelIdeal.Frame
import proofs.«427942_j66752381714534_3_alg».proof.Proof.RegionArray
import Idealize.ShloMosaic.Lib.StableHlo.Run

set_option maxRecDepth 16384

noncomputable section

namespace Cert.GraphConv.Kernel

open Cert.KernelIdeal Cert.KernelIdeal.Gen
open Idealize.ShloMosaic Idealize.ShloMosaic.TcCoe Idealize.SL.Sem Idealize.ShloMosaic.StableHlo

/-- The sparse aggregation over the edges: wrap negative source indices, gather the product's rows at the
    sources, scale each by its edge weight, add them into zeros at the target rows, clamp below at zero. -/
def aggregate (pre : (⟨S50000x128, .f32⟩ : BufTy).Contents (Elt Ideal))
    (row col : (⟨S800000, .i32⟩ : BufTy).Contents (Elt Ideal))
    (vals : (⟨S800000, .f32⟩ : BufTy).Contents (Elt Ideal)) : (⟨S50000x128, .f32⟩ : BufTy).Contents (Elt Ideal) :=
  maximumf
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 row)
      (mulf
        (broadcastInDim S800000x128 ![0, 1] bcast_S800000x1_S800000x128_0_1
          (broadcastInDim S800000x1 ![0] bcast_S800000_S800000x1_0 vals))
        (Host.gather gather_S50000x128_S800000x1_S800000x128_1_0_n_n_0_1_1128 pre
          (broadcastInDim S800000x1 ![0] bcast_S800000_S800000x1_0
            (select (cmpi .slt col (broadcastInDim S800000 ![] bcast_S_S800000 (constantI S_ 32 0#32)))
              (addi col (broadcastInDim S800000 ![] bcast_S_S800000 (constantI S_ 32 50000#32)))
              col)))))
    (broadcastInDim S50000x128 ![] bcast_S_S50000x128 (constant (F := Ideal) S_ .f32 0x00000000#32))

/-! ## The typed references of the closing clamp are the buffers themselves

The clamp is a called function, so its operations read and write their buffers through typed references, which
transport contents along the equation "the buffer's type is the value's type". That equation holds by
computation, so each transport is the identity. -/

theorem result_toBuf (h1 h2 h3) (v : (⟨S50000x128, .f32⟩ : BufTy).Contents (Elt Ideal)) :
    (TRef.of (T := ⟨S50000x128, .f32⟩) main_v14 h1 h2 h3).toBuf v = v := rfl
theorem summed_ofBuf (h1 h2 h3) (v : (⟨S50000x128, .f32⟩ : BufTy).Contents (Elt Ideal)) :
    (TRef.of (T := ⟨S50000x128, .f32⟩) main_v13 h1 h2 h3).ofBuf v = v := rfl
theorem zeros_toBuf (h1 h2 h3) (v : (⟨S50000x128, .f32⟩ : BufTy).Contents (Elt Ideal)) :
    (TRef.of (T := ⟨S50000x128, .f32⟩) main_call0_v0 h1 h2 h3).toBuf v = v := rfl
theorem zeros_ofBuf (h1 h2 h3) (v : (⟨S50000x128, .f32⟩ : BufTy).Contents (Elt Ideal)) :
    (TRef.of (T := ⟨S50000x128, .f32⟩) main_call0_v0 h1 h2 h3).ofBuf v = v := rfl
theorem zero_toBuf (h1 h2 h3) (v : (⟨S_, .f32⟩ : BufTy).Contents (Elt Ideal)) :
    (TRef.of (T := ⟨S_, .f32⟩) main_call0_cst h1 h2 h3).toBuf v = v := rfl
theorem zero_ofBuf (h1 h2 h3) (v : (⟨S_, .f32⟩ : BufTy).Contents (Elt Ideal)) :
    (TRef.of (T := ⟨S_, .f32⟩) main_call0_cst h1 h2 h3).ofBuf v = v := rfl

variable (m : (ℓ : Loc nD τ sig) → Buf (Elt Ideal) ℓ) (ρ : Dev nD → PrngReg)

/-- What the lines after the region find in the product array: the feature product. -/
theorem product_found (c : Dev nD) :
    Pipeline.withArrays (cfgs 0).spec c (V0 m c) (fun w => (dats m 0 c).arrAt w (cfgs 0).N) (Proc.devRef .tc main_v0)
      = Cert.GraphConv.featureProduct (m ((c : Thread nD τ).loc main_arg0)) (m ((c : Thread nD τ).loc main_arg1)) :=
  (Pipeline.withArrays_arr spec0 launch0.win.arr_inj c (V0 m c) _ 2).trans (regionArray_eq m c)

/-- The region stages none of the three edge arrays, so the lines after it find them as launched. -/
theorem targets_found (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans (V_main_arg2 m c)
theorem sources_found (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans (V_main_arg3 m c)
theorem edgeWeights_found (c : Dev nD) :
    Pipeline.withArrays (cfgs 0).spec c (V0 m c) (fun w => (dats m 0 c).arrAt w (cfgs 0).N) (Proc.devRef .tc main_arg4)
      = m ((c : Thread nD τ).loc main_arg4) :=
  (Pipeline.withArrays_of_ne _ c (V0 m c) _ main_arg4 (by exact (by decide : ∀ w, Pipeline.arrRef spec0 w ≠ main_arg4))).trans (V_main_arg4 m c)

/-- The program's result buffer after the lines that follow the region. -/
theorem result_eq (c : Dev nD) :
    Pipeline.afterTail₀ cfgs (dats m) 0 (V0 m) [hostOps1, hostOps1_1] c main_v14
      = aggregate (Cert.GraphConv.featureProduct (m ((c : Thread nD τ).loc main_arg0)) (m ((c : Thread nD τ).loc main_arg1)))
          (m ((c : Thread nD τ).loc main_arg2)) (m ((c : Thread nD τ).loc main_arg3)) (m ((c : Thread nD τ).loc main_arg4)) := by
  unfold Pipeline.afterTail₀
  simp only [hostOps1, hostOps1_1, List.flatten_cons, List.flatten_nil, List.append_nil, List.cons_append, List.nil_append]
  after_results
  rw [result_toBuf, summed_ofBuf, zeros_toBuf, zeros_ofBuf, zero_toBuf, zero_ofBuf]
  rw [product_found m c, targets_found m c, sources_found m c, edgeWeights_found m c]
  unfold aggregate
  rfl

/-- Every weakly fair execution of the kernel's program terminates without a fault, with the result buffer at
    `aggregate` of the feature product and the edge arrays, and the five argument arrays unchanged. -/
theorem run : θ_run defs (onTc (τ := τ) (main (F := Ideal))) ⟨m, fun _ => 0, ρ⟩ (fun r => ∀ c : Dev nD,
      r.2.mem ((c.tc : Thread nD τ).loc main_v14)
        = aggregate (Cert.GraphConv.featureProduct (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v14 (Pipeline.mem_restRefs_of main_v14 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.GraphConv.Kernel

end
-- ==== Proof.ReferenceProduct.lean ====
/-
  The reference's first operation is the feature product.

  The reference multiplies the two matrices with one host `dot_general` contracting the features' second axis
  against the weights' first. On the extended reals that operation, read at entry (i, j), is the sum over the
  contracted index k of the left operand at (i, k) times the right operand at (k, j): the feature product.
-/
import proofs.«427942_j66752381714534_3_alg».proof.Proof.Gen.ReferenceIdeal.Read
import proofs.«427942_j66752381714534_3_alg».proof.Proof.FeatureProduct

noncomputable section

namespace Cert.GraphConv.Reference

open Cert.ReferenceIdeal Cert.ReferenceIdeal.Gen Cert.ReferenceIdeal.Read
open Idealize.ShloMosaic Idealize.ShloMosaic.TcCoe Idealize.ShloMosaic.ValueIdx
open scoped BigOperators

/-- The left operand's index for output entry `i` and feature `k` is (row of `i`, `k`). -/
theorem leftIndex_eq (i : S50000x128.Idx) (k : Fin 256) : lidx_main_v0 i k = ix2 (i 0) k :=
  funext fun a => Fin.ext (by match a with | ⟨0, _⟩ => rfl | ⟨1, _⟩ => rfl)

/-- The right operand's index for output entry `i` and feature `k` is (`k`, column of `i`). -/
theorem rightIndex_eq (i : S50000x128.Idx) (k : Fin 256) : ridx_main_v0 i k = ix2 k (i 1) :=
  funext fun a => Fin.ext (by match a with | ⟨0, _⟩ => rfl | ⟨1, _⟩ => rfl)

/-- The host matrix product of the features and the weights is their feature product, entry by entry. -/
theorem dotGeneral_eq_featureProduct (x : FVec Ideal S50000x256 .f32) (w : FVec Ideal S256x128 .f32) :
    Host.dotGeneral dot_S50000x256_S256x128_S50000x128_1_0_0_1_n_n none x w = Cert.GraphConv.featureProduct x w := by
  funext i
  show val_main_v0 (F := Ideal) x w i = _
  rw [val_main_v0_apply]
  unfold Cert.GraphConv.featureProduct
  simp only [leftIndex_eq, rightIndex_eq]
  rfl

end Cert.GraphConv.Reference

end
-- ==== Proof.lean ====
/-
  A graph-convolution layer, relu(A · (x · w)) with the adjacency A given as weighted edges: the kernel
  against its reference, over the extended reals.

  Both programs first form the dense product x · w of the 50000 x 256 node features with the 256 x 128
  weights, and then run the same sparse aggregation over the 800000 edges: wrap a negative source index by
  the number of nodes, gather the product's row at each edge's source, scale it by the edge's weight, add it
  into a zero array at the edge's target, and clamp every entry below at zero.

  They differ only in how the product is formed. The reference uses one host matrix product. The kernel cuts
  the features into ten blocks of 5000 rows and, for each, multiplies the block by the whole weight matrix
  into an accumulator of zeros, after narrowing both operands to bf16; on the extended reals narrowing is the
  identity, so each block's entry (p, q) is the plain sum over the features k of x[5000 t + p, k] * w[k, q].
  The ten blocks are the ten row ranges of the output, so the array they leave is, entry by entry, the same
  finite sum the host product is. No law beyond "zero plus a sum is the sum" is used: neither side regroups
  or distributes anything, so nothing here depends on the inputs being finite.

  The aggregation is the same function of the product and the edge arrays in both programs, so equal products
  give equal results, and it is never opened.

  The three frames: the kernel's two are its launch and body run at every grid point; the reference's is its
  straight line of host operations run to the end. The kernel's idealization rewrote no operation, so there is
  nothing to preserve.
-/
import proofs.«427942_j66752381714534_3_alg».proof.Defs
import proofs.«427942_j66752381714534_3_alg».proof.Proof.Gen.Kernel
import proofs.«427942_j66752381714534_3_alg».proof.Proof.Gen.Kernel.Skeleton
import proofs.«427942_j66752381714534_3_alg».proof.Proof.Gen.Kernel.Launch
import proofs.«427942_j66752381714534_3_alg».proof.Proof.Gen.Kernel.Points
import proofs.«427942_j66752381714534_3_alg».proof.Proof.Gen.Kernel.Frame
import proofs.«427942_j66752381714534_3_alg».proof.Proof.Gen.KernelIdeal
import proofs.«427942_j66752381714534_3_alg».proof.Proof.Gen.KernelIdeal.Skeleton
import proofs.«427942_j66752381714534_3_alg».proof.Proof.Gen.KernelIdeal.Launch
import proofs.«427942_j66752381714534_3_alg».proof.Proof.Gen.KernelIdeal.Points
import proofs.«427942_j66752381714534_3_alg».proof.Proof.Gen.KernelIdeal.Frame
import proofs.«427942_j66752381714534_3_alg».proof.Proof.Gen.ReferenceIdeal
import proofs.«427942_j66752381714534_3_alg».proof.Proof.Gen.ReferenceIdeal.Run
import proofs.«427942_j66752381714534_3_alg».proof.Proof.Gen.ReferenceIdeal.Read
import proofs.«427942_j66752381714534_3_alg».proof.Proof.Gen.Pre_finite_inputs
import proofs.«427942_j66752381714534_3_alg».proof.Proof.KernelResult
import proofs.«427942_j66752381714534_3_alg».proof.Proof.ReferenceProduct
import Idealize.ShloMosaic.Adequacy
import Idealize.ShloMosaic.Init

noncomputable section

namespace Cert.Proof

open Idealize.ShloMosaic Idealize.SL.Sem

/-- The kernel as printed runs to the end without a fault and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, the kernel ends at the aggregation of the feature product
    and the edge arrays, and the reference at the aggregation of its host matrix product and the same edge
    arrays; the host matrix product is the feature product, so the two results are equal entry by entry. -/
theorem algebraic : Cert.algebraic_KernelIdeal_ReferenceIdeal := by
  intro m ρ m' ρ' _ hagree
  refine ⟨_, Cert.GraphConv.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.GraphConv.Reference.dotGeneral_eq_featureProduct]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
